-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 9
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S4096x4096, .bf16⟩
  | .hbm, ⟨6, _⟩ => ⟨S8192x4096, .bf16⟩
  | .hbm, ⟨7, _⟩ => ⟨S8192x4096, .f32⟩
  | .hbm, ⟨8, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | .local _ .vmem, ⟨8, _⟩ => ⟨S1024x4096, .bf16⟩
  | .local _ .vmem, ⟨9, _⟩ => ⟨S1024x4096, .bf16⟩
  | .local _ .vmem, ⟨10, _⟩ => ⟨S512x4096, .bf16⟩
  | .local _ .vmem, ⟨11, _⟩ => ⟨S512x4096, .bf16⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x2048x4096_S8192x4096 : S4x2048x4096.ShapeCasts S8192x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S8192x4096.size a
  hwx1_1 : ∀ i : grid1.Coords, EltTy.bits .bf16 = 32 ∨ (Rect.block (s := S8192x4096) S256x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S8192x4096.size a
  hwx2_0 : ∀ i : grid2.Coords, EltTy.bits .bf16 = 32 ∨ (Rect.block (s := S8192x4096) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .bf16 = 32 ∨ (Rect.block (s := S4096x4096) S512x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x4096.size a
  hwx2_2 : ∀ i : grid2.Coords, EltTy.bits .f32 = 32 ∨ (Rect.block (s := S1x4096) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S8192x4096.size a
  hwx2_3 : ∀ i : grid2.Coords, EltTy.bits .f32 = 32 ∨ (Rect.block (s := S8192x4096) S1024x512.size (cc2_transform_3 i) (hinb2_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v3) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4x2048x4096, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x4096, .f32⟩
  | .hbm, ⟨37, _⟩ => ⟨S4x2048x4096, .f32⟩
  | .hbm, ⟨38, _⟩ => ⟨S4x2048x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x2048x4096, .f32⟩
  | .hbm, ⟨43, _⟩ => ⟨S4x2048x4096, .f32⟩
  | .hbm, ⟨44, _⟩ => ⟨S_, .f32⟩
  | .hbm, ⟨45, _⟩ => ⟨S4x2048x4096, .f32⟩
  | .hbm, ⟨46, _⟩ => ⟨S4x2048x4096, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | .hbm, ⟨50, _⟩ => ⟨S1x1x4096, .f32⟩
  | .hbm, ⟨51, _⟩ => ⟨S4x2048x4096, .f32⟩
  | .hbm, ⟨52, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_cst_8 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S4x2048x4096_S4x2048_d2 : S4x2048x4096.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.QuantSpec.lean ====
/-
  The function both programs compute, stated once over plain index types and the extended reals.

  A row of 4096 entries is quantised against its own step: the step is the row's largest absolute value divided by
  127, but never below a fixed small positive number; an entry is divided by the step, rounded to the nearest integer
  (ties to even), clamped to [-128, 127], and multiplied by the step again. The result is the product of the
  quantised activations with the transposed quantised weights, plus the bias:
    out[b, s, o] = (∑ k, q(x[b, s, ·]) k * q(w[o, ·]) k) + bias[o].
  The four float constants are kept as the words both programs print; none of them is ever evaluated.
-/
import Idealize.ShloMosaic.PureOps.Ideal
import Idealize.ShloMosaic.Lib.ValueIdx

noncomputable section

open scoped BigOperators

namespace Cert.Quant

open Idealize.ShloMosaic Idealize.ShloMosaic.ValueIdx

/-- The largest absolute value of a row, as a fold of `max` that starts from the word for -∞. -/
def amax (row : Fin 4096 → EReal) : EReal :=
  (Finset.univ : Finset (Fin 4096)).fold max (Ideal.ofBits .f32 0xFF800000#32) (fun k => max (row k) (-(row k)))

/-- The row's quantisation step: its largest absolute value over 127, bounded below by the small constant. -/
def step (row : Fin 4096 → EReal) : EReal :=
  max (Ideal.div (amax row) (Ideal.ofBits .f32 0x42FE0000#32)) (Ideal.ofBits .f32 0x322BCC77#32)

/-- One entry at step `s`: divided by the step, rounded half to even, clamped to [-128, 127], scaled back. -/
def fq (s x : EReal) : EReal :=
  min (Ideal.ofBits .f32 0x42FE0000#32)
      (max (Ideal.ofBits .f32 0xC3000000#32) (Ideal.liftRound Ideal.roundHalfEven (Ideal.div x s))) * s

/-- A row quantised against its own step. -/
def qrow (row : Fin 4096 → EReal) (k : Fin 4096) : EReal := fq (step row) (row k)

/-- An array of `n` rows of 4096 entries, each row quantised against its own step. -/
def qrows {n : Nat} (a : (⟨2, ![n, 4096]⟩ : Shape).Idx → EReal) : (⟨2, ![n, 4096]⟩ : Shape).Idx → EReal :=
  fun i => qrow (fun k => a (ix2 (i 0) k)) (i 1)

/-- Rows of `a` against rows of `b` (a product with the second factor transposed), plus a row vector `c`. -/
def mmT {n p : Nat} (a : (⟨2, ![n, 4096]⟩ : Shape).Idx → EReal) (b : (⟨2, ![p, 4096]⟩ : Shape).Idx → EReal)
    (c : (⟨2, ![1, p]⟩ : Shape).Idx → EReal) : (⟨2, ![n, p]⟩ : Shape).Idx → EReal :=
  fun i => (∑ k : Fin 4096, a (ix2 (i 0) k) * b (ix2 (i 1) k)) + c (ix2 (0 : Fin 1) (i 1))

/-- The result at batch `b`, position `s`, output channel `o`. -/
def outAt (x : (⟨3, ![4, 2048, 4096]⟩ : Shape).Idx → EReal) (w : (⟨2, ![4096, 4096]⟩ : Shape).Idx → EReal)
    (bias : (⟨1, ![4096]⟩ : Shape).Idx → EReal) (b : Fin 4) (s : Fin 2048) (o : Fin 4096) : EReal :=
  (∑ k : Fin 4096, qrow (fun k' => x (ix3 b s k')) k * qrow (fun k' => w (ix2 o k')) k) + bias (ix1 o)

/-- The whole result array. -/
def out (x : (⟨3, ![4, 2048, 4096]⟩ : Shape).Idx → EReal) (w : (⟨2, ![4096, 4096]⟩ : Shape).Idx → EReal)
    (bias : (⟨1, ![4096]⟩ : Shape).Idx → EReal) : (⟨3, ![4, 2048, 4096]⟩ : Shape).Idx → EReal :=
  fun i => outAt x w bias (i 0) (i 1) (i 2)

theorem out_ix3 (x : (⟨3, ![4, 2048, 4096]⟩ : Shape).Idx → EReal) (w : (⟨2, ![4096, 4096]⟩ : Shape).Idx → EReal)
    (bias : (⟨1, ![4096]⟩ : Shape).Idx → EReal) (b : Fin 4) (s : Fin 2048) (o : Fin 4096) :
    out x w bias (ix3 b s o) = outAt x w bias b s o := rfl

theorem qrows_ix2 {n : Nat} (a : (⟨2, ![n, 4096]⟩ : Shape).Idx → EReal) (r : Fin n) (k : Fin 4096) :
    qrows a (ix2 r k) = qrow (fun k' => a (ix2 r k')) k := rfl

theorem mmT_ix2 {n p : Nat} (a : (⟨2, ![n, 4096]⟩ : Shape).Idx → EReal) (b : (⟨2, ![p, 4096]⟩ : Shape).Idx → EReal)
    (c : (⟨2, ![1, p]⟩ : Shape).Idx → EReal) (r : Fin n) (q : Fin p) :
    mmT a b c (ix2 r q) = (∑ k : Fin 4096, a (ix2 r k) * b (ix2 q k)) + c (ix2 (0 : Fin 1) q) := rfl

end Cert.Quant

end
-- ==== Proof.QuantPay.lean ====
/-
  The block each of the two row-quantising programs stores, read entry by entry over the extended reals.

  For a block x of 256 rows of 4096 entries, row p has the step
    s_p = max (a_p / 127) ε,   a_p = the fold of max, from the word for -∞, over |x (p, k)|, k < 4096,
  and the stored entry at (p, q) is
    min 127 (max (-128) (round-half-even (x (p, q) / s_p))) * s_p.
  That is the row quantisation of the specification applied to row p of x and read at q. The narrowing of the
  result to the shorter float format is the identity over the extended reals. The second program first re-reads
  its block under its own shape, which changes nothing. The four float constants stay the words the programs
  print; none is evaluated.
-/
import proofs.«167150_j15324443312229_1_alg».proof.Proof.Gen.KernelIdeal.Skeleton
import proofs.«167150_j15324443312229_1_alg».proof.Proof.QuantSpec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.QuantPay

open Cert.KernelIdeal Cert.KernelIdeal.Gen Idealize.ShloMosaic Idealize.ShloMosaic.ValueIdx

/-! ## A column of per-row values: a vector made a column, and a column spread over the rows' entries -/

section Column
variable {α : Type}

/-- A vector of a entries viewed as an a × 1 column reads, at (i, u), the vector at i: the row-major position
    of (i, u) in the column is i * 1 + u = i, since the unit coordinate u is 0. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column spread to a × b reads, at (p, c), the column at (p, 0): the row coordinate is kept (when
    a = 1 it is 0 either way) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The row maximum -/

/-- The maximum along the entries of a 256 × 4096 block, at row p: the fold of max from the word for -∞ over
    the 4096 entries (p, k) of that row. The index with k inserted on the entry axis of (p) is (p, k),
    coordinate by coordinate. -/
theorem rowmax_at (v : FVec Ideal S256x4096 .f32) (p : Fin 256) :
    multiReduction .maximumf [1] S256 v 0xFF800000#32 reduces_S256x4096_S256 (.inl rfl) rfl (ix1 p)
      = (Finset.univ : Finset (Fin 4096)).fold max (Ideal.ofBits .f32 0xFF800000#32) (fun k => v (ix2 p k)) := by
  refine (Ideal.multiReduction_maximumf_single v _ reduces_S256x4096_S256 (.inl rfl) rfl (ix1 p)).trans ?_
  show (Finset.univ : Finset (Fin 4096)).fold max (Ideal.ofBits .f32 0xFF800000#32)
      (fun k => v (reduces_S256x4096_S256.lift (ix1 p) k)) = _
  have hrow : (fun k : Fin 4096 => v (reduces_S256x4096_S256.lift (ix1 p) k)) = fun k => v (ix2 p k) :=
    funext fun k => congrArg v (funext fun c => Fin.ext (match c with | ⟨0, _⟩ => rfl | ⟨1, _⟩ => rfl))
  exact congrArg (fun f => (Finset.univ : Finset (Fin 4096)).fold max (Ideal.ofBits .f32 0xFF800000#32) f) hrow

/-! ## The column of row steps -/

/-- The 256 × 1 column both programs form from a block x: the row maxima of |x|, made a column, divided by
    127 and bounded below by ε. -/
def stepCol (x : FVec Ideal S256x4096 .f32) : FVec Ideal S256x1 .f32 :=
  maximumf
    (divf
      (shapeCast S256x1
        (multiReduction .maximumf [1] S256 (absf x) 0xFF800000#32 reduces_S256x4096_S256 (.inl rfl) rfl)
        shapeCasts_S256_S256x1)
      (broadcast S256x1 (Scalar.ofBits .f32 0x42FE0000#32)))
    (broadcast S256x1 (Scalar.ofBits .f32 0x322BCC77#32))

/-- The column at (p, u) is the step of row p: max (a_p / 127) ε with a_p the fold of max over
    |x (p, k)| = max (x (p, k)) (-(x (p, k))). -/
theorem stepCol_at (x : FVec Ideal S256x4096 .f32) (p : Fin 256) (u : Fin 1) :
    stepCol x (ix2 p u) = Cert.Quant.step (fun k => x (ix2 p k)) := by
  show max (Ideal.div
        (shapeCast S256x1
          (multiReduction .maximumf [1] S256 (absf x) 0xFF800000#32 reduces_S256x4096_S256 (.inl rfl) rfl)
          shapeCasts_S256_S256x1 (ix2 p u))
        (Ideal.ofBits .f32 0x42FE0000#32)) (Ideal.ofBits .f32 0x322BCC77#32) = _
  rw [shapeCast_a_a1_apply, rowmax_at]
  rfl

/-! ## The stored entries -/

/-- The first program's stored block at (p, q): entry q of row p of x0 quantised against that row's step. Both
    places the step column is spread over the row read it at (p, 0). -/
theorem quant0_at (x0 : Vec Ideal S256x4096 .f32) (p : Fin 256) (q : Fin 4096) :
    k0_pay1 (F := Ideal) x0 (ix2 p q) = Cert.Quant.qrow (fun k => x0 (ix2 p k)) q := by
  show min (Ideal.ofBits .f32 0x42FE0000#32)
        (max (Ideal.ofBits .f32 0xC3000000#32)
          (Ideal.liftRound Ideal.roundHalfEven
            (Ideal.div (x0 (ix2 p q)) (broadcastTo S256x4096 (stepCol x0) broadcasts_S256x1_S256x4096 (ix2 p q)))))
      * broadcastTo S256x4096 (stepCol x0) broadcasts_S256x1_S256x4096 (ix2 p q) = _
  rw [broadcastTo_a1_ab_apply, stepCol_at]
  rfl

/-- The second program's stored block at (p, q): the same, its block re-read under its own shape being the
    block itself. -/
theorem quant1_at (x0 : Vec Ideal S256x4096 .f32) (p : Fin 256) (q : Fin 4096) :
    k1_pay1 (F := Ideal) x0 (ix2 p q) = Cert.Quant.qrow (fun k => x0 (ix2 p k)) q := by
  have hself : shapeCast S256x4096 x0 shapeCasts_S256x4096_S256x4096 = x0 := shapeCast_self x0 _
  show min (Ideal.ofBits .f32 0x42FE0000#32)
        (max (Ideal.ofBits .f32 0xC3000000#32)
          (Ideal.liftRound Ideal.roundHalfEven
            (Ideal.div (shapeCast S256x4096 x0 shapeCasts_S256x4096_S256x4096 (ix2 p q))
              (broadcastTo S256x4096 (stepCol (shapeCast S256x4096 x0 shapeCasts_S256x4096_S256x4096))
                broadcasts_S256x1_S256x4096 (ix2 p q)))))
      * broadcastTo S256x4096 (stepCol (shapeCast S256x4096 x0 shapeCasts_S256x4096_S256x4096))
          broadcasts_S256x1_S256x4096 (ix2 p q) = _
  rw [hself, broadcastTo_a1_ab_apply, stepCol_at]
  rfl

end Cert.KernelIdeal.QuantPay

end
-- ==== Proof.QuantRegion0.lean ====
/-
  What the first kernel region leaves in its output array: the weights, each row quantised against its own step.

  The region walks the 4096 rows in 16 blocks of 256 rows; point t reads rows 256 t … 256 t + 255 of the input, all
  4096 columns, and writes the same rows of the output. A row of the stored block depends only on the same row of the
  loaded block, so the written block is that block of the row-quantised array, whatever the region finds in its
  input array; the blocks cover the output array, so the array ends as the row-quantised input.
-/
import proofs.«167150_j15324443312229_1_alg».proof.Proof.Gen.KernelIdeal.Frame
import proofs.«167150_j15324443312229_1_alg».proof.Proof.QuantSpec
import proofs.«167150_j15324443312229_1_alg».proof.Proof.QuantPay
import Idealize.ShloMosaic.Lib.Pipeline.Value
import Idealize.ShloMosaic.Lib.ValueIdx

set_option maxRecDepth 16384

noncomputable section

namespace Cert.KernelIdeal.QuantRegion0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/- The buffers' contents when the region is entered: a parameter. -/
variable (V : (c : Dev nD) → (b : Ref sig .tc) → Buf (Elt Ideal) ((c : Thread nD τ).loc b))

theorem origin : (![0, 0] : Fin 2 → Nat) = fun _ => 0 := funext fun a => by fin_cases a <;> rfl

/-- The index maps of the input and the output window, decided over the grid: both walk the row blocks in step,
    block `t` at point `t`, and neither moves along the row. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) = t.val :=
  (by decide +kernel : ∀ t : Fin grid0.N, _)

/-- The stored block at an index of the block: the row's quantisation read at the column. -/
theorem stored_at (x0 : Vec Ideal S256x4096 .f32) (j : S256x4096.Idx) :
    k0_pay1 (F := Ideal) x0 j = Cert.Quant.qrow (fun k => x0 (ix2 (j 0) k)) (j 1) := by
  conv_lhs => rw [eq_ix2 j]
  exact QuantPay.quant0_at x0 (j 0) (j 1)

/-- What point `t` writes back is block `t` of the row-quantised input array: a row of the output block depends on
    the same row of the input block only, and the two blocks sit at the same rows of their arrays. -/
theorem flushed_eq (c : Dev nD) (t : Fin cfg0.N) :
    (dat0 V c).flushed 1 t = ((cfg0.win 1).blk t).view.read (Elt Ideal) (Cert.Quant.qrows (V c main_arg1)) := by
  show (cfg0.win 1).cut (grid0.coords t) ((dat0 V c).after 1 t) = _
  rw [after0_1]
  unfold out0_1
  rw [View.canon_unit_zero origin]
  simp only [View.ld_unit_zero (S := S256x4096) origin]
  funext j
  obtain ⟨e0, e1, e2, e3⟩ := idx_facts t
  show k0_pay1 (F := Ideal) (iblk0 V c 0 t) j = Cert.Quant.qrows (V c main_arg1) (((cfg0.win 1).blk t).view.emb j)
  refine (stored_at _ j).trans ?_
  have hrow : (fun k : Fin 4096 => iblk0 V c 0 t (ix2 (j 0) k))
      = fun k => V c main_arg1 (ix2 ((((cfg0.win 1).blk t).view.emb j) 0) k) := by
    funext k
    show V c main_arg1 (((cfg0.win 0).blk t).view.emb (ix2 (j 0) k)) = _
    congr 1
    funext a; apply Fin.ext
    match a with
    | ⟨0, _⟩ =>
      show win0_0.index t (0 : Fin 2) * 256 + 1 * (j 0).val = win0_1.index t (0 : Fin 2) * 256 + 1 * (j 0).val
      omega
    | ⟨1, _⟩ =>
      show win0_0.index t (1 : Fin 2) * 4096 + 1 * k.val = k.val
      omega
  have hcol : (((cfg0.win 1).blk t).view.emb j) 1 = j 1 :=
    Fin.ext (by show win0_1.index t (1 : Fin 2) * 4096 + 1 * (j 1).val = (j 1).val; omega)
  show Cert.Quant.qrow _ (j 1)
    = Cert.Quant.qrow (fun k => V c main_arg1 (ix2 ((((cfg0.win 1).blk t).view.emb j) 0) k))
        ((((cfg0.win 1).blk t).view.emb j) 1)
  rw [hrow, hcol]

/-- An index of the output array lies in point `t`'s block iff each coordinate lies in the block's range. -/
theorem mem_blk (t : Fin cfg0.N) (i : S4096x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v2).slice (win0_1.rect t)).set ↔ _
  rw [View.set_slice_whole, Rect.mem_set_unit]
  exact Iff.rfl

/-- Every index of the output array is written: row `r` by point `r / 256`. -/
theorem cover (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  have ht : (i 0).val / 256 < grid0.N := by rw [N_0]; omega
  obtain ⟨e0, e1, e2, e3⟩ := idx_facts ⟨(i 0).val / 256, ht⟩
  refine ⟨⟨(i 0).val / 256, ht⟩, flush0_1 _, ?_⟩
  rw [mem_blk]
  intro a
  match a with
  | ⟨0, _⟩ =>
    show win0_1.index ⟨(i 0).val / 256, ht⟩ (0 : Fin 2) * 256 ≤ (i 0).val
      ∧ (i 0).val < win0_1.index ⟨(i 0).val / 256, ht⟩ (0 : Fin 2) * 256 + 256
    have e3' : win0_1.index ⟨(i 0).val / 256, ht⟩ (0 : Fin 2) = (i 0).val / 256 := e3
    omega
  | ⟨1, _⟩ =>
    show win0_1.index ⟨(i 0).val / 256, ht⟩ (1 : Fin 2) * 4096 ≤ (i 1).val
      ∧ (i 1).val < win0_1.index ⟨(i 0).val / 256, ht⟩ (1 : Fin 2) * 4096 + 4096
    omega

/-- The output array after the region: the input array as the region found it, each row quantised against its
    own step. -/
theorem final (c : Dev nD) : (dat0 V c).arrAt 1 cfg0.N = Cert.Quant.qrows (V c main_arg1) :=
  (dat0 V c).arrAt_eq_of_cover 1 _ (fun t _ => flushed_eq V c t) cover

end Cert.KernelIdeal.QuantRegion0

end
-- ==== Proof.QuantRegion1.lean ====
/- What the second kernel region leaves in its output array: the activations, laid out as 8192 rows, each row
   quantised against its own step. The region walks the rows in 32 blocks of 256; point t reads rows
   256 t … 256 t + 255 of the input and writes the same rows of the output; a row of the stored block depends only
   on the same row of the loaded block, and the blocks cover the output array. -/
import proofs.«167150_j15324443312229_1_alg».proof.Proof.Gen.KernelIdeal.Frame
import proofs.«167150_j15324443312229_1_alg».proof.Proof.QuantSpec
import proofs.«167150_j15324443312229_1_alg».proof.Proof.QuantPay
import Idealize.ShloMosaic.Lib.Pipeline.Value
import Idealize.ShloMosaic.Lib.ValueIdx

set_option maxRecDepth 16384

noncomputable section

namespace Cert.KernelIdeal.QuantRegion1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/- The buffers' contents when the region is entered: a parameter. -/
variable (V : (c : Dev nD) → (b : Ref sig .tc) → Buf (Elt Ideal) ((c : Thread nD τ).loc b))

theorem origin : (![0, 0] : Fin 2 → Nat) = fun _ => 0 := funext fun a => by fin_cases a <;> rfl

/-- The index maps of the input and the output window, decided over the grid: both walk the row blocks in step,
    block `t` at point `t`, and neither moves along the row. -/
theorem idx_facts : ∀ t : Fin cfg1.N, win1_0.index t (0 : Fin 2) = win1_1.index t (0 : Fin 2)
    ∧ win1_0.index t (1 : Fin 2) = 0 ∧ win1_1.index t (1 : Fin 2) = 0 ∧ win1_1.index t (0 : Fin 2) = t.val :=
  (by decide +kernel : ∀ t : Fin grid1.N, _)

/-- The stored block at an index of the block: the row's quantisation read at the column. -/
theorem stored_at (x0 : Vec Ideal S256x4096 .f32) (j : S256x4096.Idx) :
    k1_pay1 (F := Ideal) x0 j = Cert.Quant.qrow (fun k => x0 (ix2 (j 0) k)) (j 1) := by
  conv_lhs => rw [eq_ix2 j]
  exact QuantPay.quant1_at x0 (j 0) (j 1)

/-- What point `t` writes back is block `t` of the row-quantised input array: a row of the output block depends on
    the same row of the input block only, and the two blocks sit at the same rows of their arrays. -/
theorem flushed_eq (c : Dev nD) (t : Fin cfg1.N) :
    (dat1 V c).flushed 1 t = ((cfg1.win 1).blk t).view.read (Elt Ideal) (Cert.Quant.qrows (V c main_v0)) := by
  show (cfg1.win 1).cut (grid1.coords t) ((dat1 V c).after 1 t) = _
  rw [after1_1]
  unfold out1_1
  rw [View.canon_unit_zero origin]
  simp only [View.ld_unit_zero (S := S256x4096) origin]
  funext j
  obtain ⟨e0, e1, e2, e3⟩ := idx_facts t
  show k1_pay1 (F := Ideal) (iblk1 V c 0 t) j = Cert.Quant.qrows (V c main_v0) (((cfg1.win 1).blk t).view.emb j)
  refine (stored_at _ j).trans ?_
  have hrow : (fun k : Fin 4096 => iblk1 V c 0 t (ix2 (j 0) k))
      = fun k => V c main_v0 (ix2 ((((cfg1.win 1).blk t).view.emb j) 0) k) := by
    funext k
    show V c main_v0 (((cfg1.win 0).blk t).view.emb (ix2 (j 0) k)) = _
    congr 1
    funext a; apply Fin.ext
    match a with
    | ⟨0, _⟩ =>
      show win1_0.index t (0 : Fin 2) * 256 + 1 * (j 0).val = win1_1.index t (0 : Fin 2) * 256 + 1 * (j 0).val
      omega
    | ⟨1, _⟩ =>
      show win1_0.index t (1 : Fin 2) * 4096 + 1 * k.val = k.val
      omega
  have hcol : (((cfg1.win 1).blk t).view.emb j) 1 = j 1 :=
    Fin.ext (by show win1_1.index t (1 : Fin 2) * 4096 + 1 * (j 1).val = (j 1).val; omega)
  show Cert.Quant.qrow _ (j 1)
    = Cert.Quant.qrow (fun k => V c main_v0 (ix2 ((((cfg1.win 1).blk t).view.emb j) 0) k))
        ((((cfg1.win 1).blk t).view.emb j) 1)
  rw [hrow, hcol]

/-- An index of the output array lies in point `t`'s block iff each coordinate lies in the block's range. -/
theorem mem_blk (t : Fin cfg1.N) (i : S8192x4096.Idx) :
    i ∈ ((cfg1.win 1).blk t).view.set ↔ ∀ a : Fin 2, win1_1.index t a * S256x4096.size a ≤ (i a).val
      ∧ (i a).val < win1_1.index t a * S256x4096.size a + S256x4096.size a := by
  show i ∈ ((View.whole main_v3).slice (win1_1.rect t)).set ↔ _
  rw [View.set_slice_whole, Rect.mem_set_unit]
  exact Iff.rfl

/-- Every index of the output array is written: row `r` by point `r / 256`. -/
theorem cover (i : S8192x4096.Idx) :
    ∃ t : Fin cfg1.N, (cfg1.win 1).flush t = true ∧ i ∈ ((cfg1.win 1).blk t).view.set := by
  have hi0 : (i 0).val < 8192 := (i 0).isLt
  have hi1 : (i 1).val < 4096 := (i 1).isLt
  have ht : (i 0).val / 256 < grid1.N := by rw [N_1]; omega
  obtain ⟨e0, e1, e2, e3⟩ := idx_facts ⟨(i 0).val / 256, ht⟩
  refine ⟨⟨(i 0).val / 256, ht⟩, flush1_1 _, ?_⟩
  rw [mem_blk]
  intro a
  match a with
  | ⟨0, _⟩ =>
    show win1_1.index ⟨(i 0).val / 256, ht⟩ (0 : Fin 2) * 256 ≤ (i 0).val
      ∧ (i 0).val < win1_1.index ⟨(i 0).val / 256, ht⟩ (0 : Fin 2) * 256 + 256
    have e3' : win1_1.index ⟨(i 0).val / 256, ht⟩ (0 : Fin 2) = (i 0).val / 256 := e3
    omega
  | ⟨1, _⟩ =>
    show win1_1.index ⟨(i 0).val / 256, ht⟩ (1 : Fin 2) * 4096 ≤ (i 1).val
      ∧ (i 1).val < win1_1.index ⟨(i 0).val / 256, ht⟩ (1 : Fin 2) * 4096 + 4096
    omega

/-- The output array after the region: the input array as the region found it, each row quantised against its
    own step. -/
theorem final (c : Dev nD) : (dat1 V c).arrAt 1 cfg1.N = Cert.Quant.qrows (V c main_v0) :=
  (dat1 V c).arrAt_eq_of_cover 1 _ (fun t _ => flushed_eq V c t) cover

end Cert.KernelIdeal.QuantRegion1

end
-- ==== Proof.MatmulRegion.lean ====
/-
  The third kernel region multiplies the quantised activations by the transposed quantised weights and adds
  the bias, block by block: the output array [8192, 4096] is cut into 8 × 8 blocks of 1024 × 512, and the block
  (i, j) is computed from rows 1024·i … 1024·i + 1023 of the first factor, rows 512·j … 512·j + 511 of the second
  factor and columns 512·j … 512·j + 511 of the bias row. This module proves that, over the extended reals, one
  block's result at (p, q) is (∑ k, a[p, k] · b[q, k]) + c[0, q]; that every grid point therefore writes back
  exactly its block of the whole-array function r, o ↦ (∑ k, A[r, k] · B[o, k]) + C[0, o]; and, since the 64 blocks
  cover the array, that the output array ends holding that function of whatever the three input arrays held
  when the region was entered.
-/
import proofs.«167150_j15324443312229_1_alg».proof.Proof.Gen.KernelIdeal.Frame
import proofs.«167150_j15324443312229_1_alg».proof.Proof.QuantSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.MatmulRegion

open Cert.KernelIdeal Cert.KernelIdeal.Gen Idealize.ShloMosaic Idealize.ShloMosaic.TcCoe Idealize.ShloMosaic.ValueIdx Idealize.SL.Sem
open Idealize.ShloMosaic.Pipeline (Dat)

/-! ## One block: the product with the second factor transposed, plus the bias row -/

/-- The first factor is read at the output's row … -/
theorem lhs_axis0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
/-- … and the summation index; -/
theorem lhs_axis1 (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
/-- the second factor at the output's column, as ITS row, … -/
theorem rhs_axis0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
/-- … and the summation index. -/
theorem rhs_axis1 (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- The block product alone, at (p, q): the sum over k of a[p, k] · b[q, k]. -/
theorem product_at (a : FVec Ideal S1024x4096 .bf16) (b : FVec Ideal S512x4096 .bf16) (p : Fin 1024) (q : Fin 512) :
    FloatOps.matmul dot_S1024x4096_S512x4096_S1024x512_1_1_0_0_n_n none a b (constant (F := Ideal) S1024x512 .f32 0x00000000#32) (ix2 p q)
      = ∑ k : Fin 4096, a (ix2 p k) * b (ix2 q k) := by
  rw [Ideal.matmul_constant_zero_apply, ← Equiv.sum_comp (ValueIdx.contrEquiv1 dot_S1024x4096_S512x4096_S1024x512_1_1_0_0_n_n 4096 rfl rfl).symm]
  refine Finset.sum_congr rfl fun k _ => ?_
  have hk := ValueIdx.contrEquiv1_symm_val dot_S1024x4096_S512x4096_S1024x512_1_1_0_0_n_n 4096 rfl rfl k
  have el : dot_S1024x4096_S512x4096_S1024x512_1_1_0_0_n_n.lhsIdx (ix2 p q) ((ValueIdx.contrEquiv1 dot_S1024x4096_S512x4096_S1024x512_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S1024x4096_S512x4096_S1024x512_1_1_0_0_n_n.rhsIdx (ix2 p q) ((ValueIdx.contrEquiv1 dot_S1024x4096_S512x4096_S1024x512_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-- One block's result at (p, q): the product with the second factor transposed, plus the bias row at q. -/
theorem matmul_at (a : Vec Ideal S1024x4096 .bf16) (b : Vec Ideal S512x4096 .bf16) (c : Vec Ideal S1x512 .f32) (p : Fin 1024) (q : Fin 512) :
    k2_pay1 (F := Ideal) a b c (ix2 p q) = (∑ k : Fin 4096, a (ix2 p k) * b (ix2 q k)) + c (ix2 (0 : Fin 1) q) := by
  unfold k2_pay1
  simp only [shapeCast_self]
  refine (ValueIdx.addf_apply _ _ (ix2 p q)).trans ?_
  refine congrArg₂ (· + ·) (product_at a b p q) ?_
  exact broadcastTo_1b_ab_apply c broadcasts_S1x512_S1024x512 p q

/-! ## The index maps, decided over the 8 × 8 grid -/

/-- At every grid point the first factor's block is the output block's row block, whole rows; the second factor's
    block is the output block's COLUMN block, as rows of the second factor, whole rows; the bias row's block is
    the output block's column block; and the output's block indices stay within 0 … 7. -/
theorem block_indices : ∀ t : Fin cfg2.N,
    win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 2) = 0
    ∧ win2_2.index t (1 : Fin 2) = win2_3.index t (1 : Fin 2)
    ∧ win2_3.index t (0 : Fin 2) ≤ 7
    ∧ win2_3.index t (1 : Fin 2) ≤ 7 :=
  (by decide +kernel : ∀ t : Fin grid2.N, _)

/-- Every one of the 8 × 8 output blocks is some grid point's. -/
theorem block_onto : ∀ (q0 : Fin 8) (q1 : Fin 8), ∃ t : Fin cfg2.N, win2_3.index t = ![q0.val, q1.val] :=
  (by decide +kernel : ∀ (q0 : Fin 8) (q1 : Fin 8), ∃ t : Fin grid2.N, win2_3.index t = ![q0.val, q1.val])

/-! ## What one grid point writes back -/

theorem zero_offsets : (![0, 0] : Fin 2 → Nat) = fun _ => 0 := funext fun a => by fin_cases a <;> rfl

/-- One block's result, when the three loaded blocks are the rows 1024·i0 …, the rows 512·i1 … and the columns
    512·i1 … of three whole arrays A, B, C: the whole-array function of A, B, C at row 1024·i0 + p and column
    512·i1 + q. -/
theorem block_at (A : S8192x4096.Idx → EReal) (B : S4096x4096.Idx → EReal) (C : S1x4096.Idx → EReal)
    (a : Vec Ideal S1024x4096 .bf16) (b : Vec Ideal S512x4096 .bf16) (c : Vec Ideal S1x512 .f32)
    (i0 i1 : Nat) (hi0 : i0 ≤ 7) (hi1 : i1 ≤ 7)
    (ha : ∀ (p : Fin 1024) (k : Fin 4096), a (ix2 p k) = A (ix2 (⟨i0 * 1024 + p.val, by omega⟩ : Fin 8192) k))
    (hb : ∀ (q : Fin 512) (k : Fin 4096), b (ix2 q k) = B (ix2 (⟨i1 * 512 + q.val, by omega⟩ : Fin 4096) k))
    (hc : ∀ (q : Fin 512), c (ix2 (0 : Fin 1) q) = C (ix2 (0 : Fin 1) (⟨i1 * 512 + q.val, by omega⟩ : Fin 4096)))
    (p : Fin 1024) (q : Fin 512) :
    k2_pay1 (F := Ideal) a b c (ix2 p q)
      = Cert.Quant.mmT A B C (ix2 (⟨i0 * 1024 + p.val, by omega⟩ : Fin 8192) (⟨i1 * 512 + q.val, by omega⟩ : Fin 4096)) := by
  rw [matmul_at, Cert.Quant.mmT_ix2, hc q]
  refine congrArg (· + _) (Finset.sum_congr rfl fun k _ => ?_)
  rw [ha p k, hb q k]

/-- The first factor's block at a grid point is whole rows of the first factor, from row 1024 · (its block index). -/
theorem first_block_at (V : (c : Dev nD) → (b : Ref sig .tc) → Buf (Elt Ideal) ((c : Thread nD τ).loc b)) (c : Dev nD)
    (t : Fin cfg2.N) (i0 : Nat) (hi0 : i0 ≤ 7) (h0 : win2_0.index t (0 : Fin 2) = i0) (h1 : win2_0.index t (1 : Fin 2) = 0)
    (p : Fin 1024) (k : Fin 4096) :
    (iblk2 (F := Ideal) V c 0 t : Vec Ideal S1024x4096 .bf16) (ix2 p k)
      = (V c main_v3 : S8192x4096.Idx → EReal) (ix2 (⟨i0 * 1024 + p.val, by omega⟩ : Fin 8192) k) := by
  unfold iblk2
  rw [View.read_apply]
  show (V c main_v3 : S8192x4096.Idx → EReal) _ = (V c main_v3 : S8192x4096.Idx → EReal) _
  refine congrArg (V c main_v3 : S8192x4096.Idx → EReal) (funext fun a => Fin.ext ?_)
  match a with
  | ⟨0, _⟩ => show win2_0.index t (0 : Fin 2) * 1024 + 1 * p.val = i0 * 1024 + p.val; rw [h0]; omega
  | ⟨1, _⟩ => show win2_0.index t (1 : Fin 2) * 4096 + 1 * k.val = k.val; rw [h1]; omega

/-- The second factor's block is whole rows of the second factor, from row 512 · (its block index). -/
theorem second_block_at (V : (c : Dev nD) → (b : Ref sig .tc) → Buf (Elt Ideal) ((c : Thread nD τ).loc b)) (c : Dev nD)
    (t : Fin cfg2.N) (i1 : Nat) (hi1 : i1 ≤ 7) (h0 : win2_1.index t (0 : Fin 2) = i1) (h1 : win2_1.index t (1 : Fin 2) = 0)
    (q : Fin 512) (k : Fin 4096) :
    (iblk2 (F := Ideal) V c 1 t : Vec Ideal S512x4096 .bf16) (ix2 q k)
      = (V c main_v2 : S4096x4096.Idx → EReal) (ix2 (⟨i1 * 512 + q.val, by omega⟩ : Fin 4096) k) := by
  unfold iblk2
  rw [View.read_apply]
  show (V c main_v2 : S4096x4096.Idx → EReal) _ = (V c main_v2 : S4096x4096.Idx → EReal) _
  refine congrArg (V c main_v2 : S4096x4096.Idx → EReal) (funext fun a => Fin.ext ?_)
  match a with
  | ⟨0, _⟩ => show win2_1.index t (0 : Fin 2) * 512 + 1 * q.val = i1 * 512 + q.val; rw [h0]; omega
  | ⟨1, _⟩ => show win2_1.index t (1 : Fin 2) * 4096 + 1 * k.val = k.val; rw [h1]; omega

/-- The bias row's block is its columns from column 512 · (its block index). -/
theorem bias_block_at (V : (c : Dev nD) → (b : Ref sig .tc) → Buf (Elt Ideal) ((c : Thread nD τ).loc b)) (c : Dev nD)
    (t : Fin cfg2.N) (i1 : Nat) (hi1 : i1 ≤ 7) (h0 : win2_2.index t (0 : Fin 2) = 0) (h1 : win2_2.index t (1 : Fin 2) = i1)
    (q : Fin 512) :
    (iblk2 (F := Ideal) V c 2 t : Vec Ideal S1x512 .f32) (ix2 (0 : Fin 1) q)
      = (V c main_v1 : S1x4096.Idx → EReal) (ix2 (0 : Fin 1) (⟨i1 * 512 + q.val, by omega⟩ : Fin 4096)) := by
  unfold iblk2
  rw [View.read_apply]
  show (V c main_v1 : S1x4096.Idx → EReal) _ = (V c main_v1 : S1x4096.Idx → EReal) _
  refine congrArg (V c main_v1 : S1x4096.Idx → EReal) (funext fun a => Fin.ext ?_)
  match a with
  | ⟨0, _⟩ => show win2_2.index t (0 : Fin 2) * 1 + 1 * 0 = 0; rw [h0]
  | ⟨1, _⟩ => show win2_2.index t (1 : Fin 2) * 512 + 1 * q.val = i1 * 512 + q.val; rw [h1]; omega

/-- WHAT GRID POINT t WRITES BACK is its block of the whole-array function of the three input arrays as the
    region finds them. -/
theorem written_block (V : (c : Dev nD) → (b : Ref sig .tc) → Buf (Elt Ideal) ((c : Thread nD τ).loc b)) (c : Dev nD)
    (t : Fin cfg2.N) :
    (dat2 (F := Ideal) V c).flushed 3 t
      = ((cfg2.win 3).blk t).view.read (Elt Ideal) (Cert.Quant.mmT (V c main_v3) (V c main_v2) (V c main_v1)) := by
  show (cfg2.win 3).cut (grid2.coords t) ((dat2 V c).after 3 t) = _
  rw [after2_3]
  unfold out2_3
  rw [View.canon_unit_zero zero_offsets]
  simp only [View.ld_unit_zero (S := S1024x4096) zero_offsets, View.ld_unit_zero (S := S512x4096) zero_offsets,
    View.ld_unit_zero (S := S1x512) zero_offsets]
  obtain ⟨e0, e1, e2, e3, e4, e5, b0, b1⟩ := block_indices t
  refine funext fun (j : S1024x512.Idx) => ?_
  obtain ⟨p, q, rfl⟩ : ∃ (p : Fin 1024) (q : Fin 512), j = ix2 p q := ⟨j 0, j 1, eq_ix2 j⟩
  refine (block_at (V c main_v3) (V c main_v2) (V c main_v1) (iblk2 V c 0 t) (iblk2 V c 1 t) (iblk2 V c 2 t)
    (win2_3.index t (0 : Fin 2)) (win2_3.index t (1 : Fin 2)) b0 b1
    (first_block_at V c t _ b0 e0 e1) (second_block_at V c t _ b1 e2 e3) (bias_block_at V c t _ b1 e4 e5) p q).trans ?_
  rw [View.read_apply]
  show Cert.Quant.mmT (V c main_v3) (V c main_v2) (V c main_v1) _ = Cert.Quant.mmT (V c main_v3) (V c main_v2) (V c main_v1) _
  refine congrArg (Cert.Quant.mmT (V c main_v3) (V c main_v2) (V c main_v1)) (funext fun a => Fin.ext ?_)
  match a with
  | ⟨0, _⟩ => show win2_3.index t (0 : Fin 2) * 1024 + p.val = win2_3.index t (0 : Fin 2) * 1024 + 1 * p.val; omega
  | ⟨1, _⟩ => show win2_3.index t (1 : Fin 2) * 512 + q.val = win2_3.index t (1 : Fin 2) * 512 + 1 * q.val; omega

/-! ## The blocks cover the array -/

/-- An index of the output array is in point t's block iff each coordinate is in the block's range on its axis. -/
theorem mem_block (t : Fin cfg2.N) (i : S8192x4096.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v4).slice (win2_3.rect t)).set ↔ _
  rw [View.set_slice_whole, Rect.mem_set_unit]
  exact Iff.rfl

/-- Row r is in row block r / 1024 and column o in column block o / 512: every index is in some point's block. -/
theorem covered (i : S8192x4096.Idx) :
    ∃ t : Fin cfg2.N, (cfg2.win 3).flush t = true ∧ i ∈ ((cfg2.win 3).blk t).view.set := by
  have hi0 : (i 0).val < 8192 := (i 0).isLt
  have hi1 : (i 1).val < 4096 := (i 1).isLt
  obtain ⟨t, ht⟩ := block_onto ⟨(i 0).val / 1024, by omega⟩ ⟨(i 1).val / 512, by omega⟩
  have q0 : win2_3.index t (0 : Fin 2) = (i 0).val / 1024 := congrFun ht 0
  have q1 : win2_3.index t (1 : Fin 2) = (i 1).val / 512 := congrFun ht 1
  refine ⟨t, flush2_3 t, ?_⟩
  rw [mem_block]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 512 ≤ (i 1).val ∧ (i 1).val < win2_3.index t (1 : Fin 2) * 512 + 512; omega

/-! ## The output array after the region -/

/-- THE OUTPUT ARRAY after the region's 64 points: rows of the first input array against rows of the second, plus the
    bias row, whatever the three arrays held when the region was entered. -/
theorem final2 (V : (c : Dev nD) → (b : Ref sig .tc) → Buf (Elt Ideal) ((c : Thread nD τ).loc b)) (c : Dev nD) :
    (dat2 (F := Ideal) V c).arrAt 3 cfg2.N = Cert.Quant.mmT (V c main_v3) (V c main_v2) (V c main_v1) :=
  (dat2 V c).arrAt_eq_of_cover 3 (Cert.Quant.mmT (V c main_v3) (V c main_v2) (V c main_v1))
    (fun t _ => written_block V c t) covered

end Cert.KernelIdeal.MatmulRegion

end
-- ==== Proof.FlatLayout.lean ====
/-
  The layouts around the three kernel regions, read at an index: the activations [4, 2048, 4096] laid out as 8192 rows
  (row b * 2048 + s is row (b, s)), the bias as one row, and the flat result [8192, 4096] read back by batch and position.
  With them the flat program — quantise the 8192 activation rows and the 4096 weight rows, multiply rows against rows,
  add the bias row — is the specification.
-/
import proofs.«167150_j15324443312229_1_alg».proof.Proof.QuantSpec
import Idealize.ShloMosaic.Lib.Pipeline.Value
import Idealize.ShloMosaic.Lib.ValueIdx
import Idealize.ShloMosaic.Lib.ValueLayout

noncomputable section

open scoped BigOperators

namespace Cert.Quant

open Idealize.ShloMosaic Idealize.ShloMosaic.ValueIdx

/-- Row `b * 2048 + s` of the activations laid out as 8192 rows is row `(b, s)` of the batch. -/
theorem flat_row (x : (⟨3, ![4, 2048, 4096]⟩ : Shape).Idx → EReal)
    (h : (⟨3, ![4, 2048, 4096]⟩ : Shape).ShapeCasts ⟨2, ![8192, 4096]⟩) (b : Fin 4) (s : Fin 2048) (k : Fin 4096)
    (r : Fin 8192) (hr : r.val = b.val * 2048 + s.val) :
    shapeCast ⟨2, ![8192, 4096]⟩ x h (ix2 r k) = x (ix3 b s k) :=
  shapeCast_apply x h _ _ (by
    rw [Shape.rowMajor_val_three, Shape.rowMajor_val_two]
    show (b.val * 2048 + s.val) * 4096 + k.val = r.val * 4096 + k.val
    rw [hr])

/-- The result laid out by batch and position reads row `b * 2048 + s` of the flat result. -/
theorem unflat_row (y : (⟨2, ![8192, 4096]⟩ : Shape).Idx → EReal)
    (h : (⟨2, ![8192, 4096]⟩ : Shape).ShapeCasts ⟨3, ![4, 2048, 4096]⟩) (b : Fin 4) (s : Fin 2048) (o : Fin 4096)
    (r : Fin 8192) (hr : r.val = b.val * 2048 + s.val) :
    shapeCast ⟨3, ![4, 2048, 4096]⟩ y h (ix3 b s o) = y (ix2 r o) :=
  shapeCast_apply y h _ _ (by
    rw [Shape.rowMajor_val_three, Shape.rowMajor_val_two]
    show r.val * 4096 + o.val = (b.val * 2048 + s.val) * 4096 + o.val
    rw [hr])

/-- The flat program — activations as 8192 rows, the bias as one row, the product read back by batch and
    position — computes the specification. -/
theorem flat_is_out (x : (⟨3, ![4, 2048, 4096]⟩ : Shape).Idx → EReal) (w : (⟨2, ![4096, 4096]⟩ : Shape).Idx → EReal)
    (bias : (⟨1, ![4096]⟩ : Shape).Idx → EReal)
    (h1 : (⟨3, ![4, 2048, 4096]⟩ : Shape).ShapeCasts ⟨2, ![8192, 4096]⟩)
    (h2 : (⟨1, ![4096]⟩ : Shape).ShapeCasts ⟨2, ![1, 4096]⟩)
    (h3 : (⟨2, ![8192, 4096]⟩ : Shape).ShapeCasts ⟨3, ![4, 2048, 4096]⟩) :
    shapeCast ⟨3, ![4, 2048, 4096]⟩
        (mmT (qrows (shapeCast ⟨2, ![8192, 4096]⟩ x h1)) (qrows w) (shapeCast ⟨2, ![1, 4096]⟩ bias h2)) h3
      = out x w bias := by
  funext i
  obtain ⟨b, s, o, rfl⟩ : ∃ (b : Fin 4) (s : Fin 2048) (o : Fin 4096), i = ix3 b s o := ⟨i 0, i 1, i 2, eq_ix3 i⟩
  have hlt : b.val * 2048 + s.val < 8192 := by have := b.isLt; have := s.isLt; omega
  rw [unflat_row _ h3 b s o ⟨b.val * 2048 + s.val, hlt⟩ rfl, mmT_ix2, out_ix3, shapeCast_a_1a_apply]
  unfold outAt
  congr 1
  refine Finset.sum_congr rfl fun k _ => ?_
  rw [qrows_ix2, qrows_ix2]
  congr 2
  funext k'
  exact flat_row x h1 b s k' ⟨b.val * 2048 + s.val, hlt⟩ rfl

end Cert.Quant

end
-- ==== Proof.KernelValue.lean ====
/-
  The idealized kernel program's result, as one function of the arguments.

  The program reshapes the activations to 8192 rows and the bias to one row, quantises the weights' rows (first
  region) and the activations' rows (second region), multiplies rows against rows and adds the bias row (third
  region), and reshapes the product back. Walking the buffers' contents from boundary to boundary — a reshape is read
  where it is written, a region's output array is what its blocks leave, every other buffer is carried unchanged —
  the result buffer ends at the flat program of the argument arrays, which is the specification.
-/
import proofs.«167150_j15324443312229_1_alg».proof.Proof.Gen.KernelIdeal.Frame
import proofs.«167150_j15324443312229_1_alg».proof.Proof.KernelRun
import proofs.«167150_j15324443312229_1_alg».proof.Proof.QuantSpec
import proofs.«167150_j15324443312229_1_alg».proof.Proof.QuantRegion0
import proofs.«167150_j15324443312229_1_alg».proof.Proof.QuantRegion1
import proofs.«167150_j15324443312229_1_alg».proof.Proof.MatmulRegion
import proofs.«167150_j15324443312229_1_alg».proof.Proof.FlatLayout
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- Before the first region the activations' flat buffer holds the activations as 8192 rows. -/
theorem entry_x (c : Dev nD) : V1 m ρ c main_v0
    = shapeCast S8192x4096 (m ((c : Thread nD τ).loc main_arg0)) shapeCasts_S4x2048x4096_S8192x4096 := by
  show StableHlo.after hostOps0 (W0 m ρ c) (Proc.devRef .tc main_v0) = _
  after_results; rfl

/-- Before the first region the bias' row buffer holds the bias as one row. -/
theorem entry_b (c : Dev nD) : V1 m ρ c main_v1
    = shapeCast S1x4096 (m ((c : Thread nD τ).loc main_arg2)) shapeCasts_S4096_S1x4096 := by
  show StableHlo.after hostOps0 (W0 m ρ c) (Proc.devRef .tc main_v1) = _
  after_results; rfl

/-- The weights are untouched by the two reshapes. -/
theorem entry_w (c : Dev nD) : V1 m ρ c main_arg1 = m ((c : Thread nD τ).loc main_arg1) := by
  show StableHlo.after hostOps0 (W0 m ρ c) (Proc.devRef .tc main_arg1) = _
  after_results

/-- The quantised weights, as the third region finds them: written by the first region, carried through the second. -/
theorem wq_eq (c : Dev nD) : V3 m ρ c main_v2 = Cert.Quant.qrows (m ((c : Thread nD τ).loc main_arg1)) :=
  calc V3 m ρ c main_v2
    _ = W2 m ρ c (Proc.devRef .tc main_v2) := W3_of_ne m ρ c main_v2 (by decide)
    _ = (dat0 (V1 m ρ) c).arrAt 1 cfg0.N := W2_arr m ρ c 1
    _ = Cert.Quant.qrows (V1 m ρ c main_arg1) := QuantRegion0.final _ c
    _ = _ := by rw [entry_w]

/-- The quantised activations, as the third region finds them: written by the second region from the flat
    activations, which the first region carried through. -/
theorem xq_eq (c : Dev nD) : V3 m ρ c main_v3
    = Cert.Quant.qrows (shapeCast S8192x4096 (m ((c : Thread nD τ).loc main_arg0)) shapeCasts_S4x2048x4096_S8192x4096) :=
  calc V3 m ρ c main_v3
    _ = (dat1 (V2 m ρ) c).arrAt 1 cfg1.N := W3_arr m ρ c 1
    _ = Cert.Quant.qrows (V2 m ρ c main_v0) := QuantRegion1.final _ c
    _ = Cert.Quant.qrows (V1 m ρ c main_v0) := by
        rw [show V2 m ρ c main_v0 = V1 m ρ c main_v0 from W2_of_ne m ρ c main_v0 (by decide)]
    _ = _ := by rw [entry_x]

/-- The bias row, as the third region finds it: carried through the first two regions. -/
theorem b_eq (c : Dev nD) : V3 m ρ c main_v1
    = shapeCast S1x4096 (m ((c : Thread nD τ).loc main_arg2)) shapeCasts_S4096_S1x4096 :=
  calc V3 m ρ c main_v1
    _ = W2 m ρ c (Proc.devRef .tc main_v1) := W3_of_ne m ρ c main_v1 (by decide)
    _ = W1 m ρ c (Proc.devRef .tc main_v1) := W2_of_ne m ρ c main_v1 (by decide)
    _ = _ := entry_b m ρ c

/-- The result buffer after the last reshape: the flat program of the argument arrays. -/
theorem result_flat (c : Dev nD) : W5 m ρ c (Proc.devRef .tc main_v5)
    = shapeCast S4x2048x4096 (Cert.Quant.mmT
        (Cert.Quant.qrows (shapeCast S8192x4096 (m ((c : Thread nD τ).loc main_arg0)) shapeCasts_S4x2048x4096_S8192x4096))
        (Cert.Quant.qrows (m ((c : Thread nD τ).loc main_arg1)))
        (shapeCast S1x4096 (m ((c : Thread nD τ).loc main_arg2)) shapeCasts_S4096_S1x4096))
      shapeCasts_S8192x4096_S4x2048x4096 := by
  have h4 : W4 m ρ c (Proc.devRef .tc main_v4) = Cert.Quant.mmT
        (Cert.Quant.qrows (shapeCast S8192x4096 (m ((c : Thread nD τ).loc main_arg0)) shapeCasts_S4x2048x4096_S8192x4096))
        (Cert.Quant.qrows (m ((c : Thread nD τ).loc main_arg1)))
        (shapeCast S1x4096 (m ((c : Thread nD τ).loc main_arg2)) shapeCasts_S4096_S1x4096) :=
    calc W4 m ρ c (Proc.devRef .tc main_v4)
      _ = (dat2 (V3 m ρ) c).arrAt 3 cfg2.N := W4_arr m ρ c 3
      _ = Cert.Quant.mmT (V3 m ρ c main_v3) (V3 m ρ c main_v2) (V3 m ρ c main_v1) := MatmulRegion.final2 _ c
      _ = _ := by rw [xq_eq m ρ c, wq_eq m ρ c, b_eq m ρ c]
  show StableHlo.after hostOps3 (W4 m ρ c) (Proc.devRef .tc main_v5) = _
  after_results
  rw [h4]
  rfl

/-- The result buffer ends at the specification of the argument arrays. -/
theorem result_is_out (c : Dev nD) : W5 m ρ c (Proc.devRef .tc main_v5)
    = Cert.Quant.out (m ((c : Thread nD τ).loc main_arg0)) (m ((c : Thread nD τ).loc main_arg1))
        (m ((c : Thread nD τ).loc main_arg2)) :=
  (result_flat m ρ c).trans (Cert.Quant.flat_is_out _ _ _ _ _ _)

/-- The run, read: every weakly fair execution terminates, nothing faulting, with the result buffer at the
    specification of the argument arrays and the arguments as launched. -/
theorem run : θ_run defs (onTc (τ := τ) (main (F := Ideal))) ⟨m, fun _ => 0, ρ⟩ (fun r => ∀ c : Dev nD,
      r.2.mem ((c.tc : Thread nD τ).loc main_v5)
        = Cert.Quant.out (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_is_out m ρ c), (h c).2⟩) (Named.run_named m ρ)

end Cert.KernelIdeal.KValue

end
-- ==== Proof.RefValue.lean ====
/-
  The reference program's result is the specification.

  The reference quantises every row of the weights w[o, ·] and every row of the activations x[b, s, ·] against the
  row's own step, contracts the two quantised arrays over the row coordinate k, and adds the bias:
    result[b, s, o] = (∑ k, q(x[b, s, ·]) k * q(w[o, ·]) k) + bias[o].
  This module reads the reference's last stage index by index and shows it is that function: the maximum of the absolute
  values over a row is the fold of max over the row's 4096 coordinates starting from the word for -∞; the step is that
  maximum over 127, bounded below by the small constant; an entry is divided by the step, rounded half to even, clamped
  to [-128, 127] and multiplied by the step; the contraction at (b, s, o) pairs x's entry (b, s, k) with w's entry
  (o, k); and the bias reaches (b, s, o) as bias[o]. No float constant is evaluated.
-/
import proofs.«167150_j15324443312229_1_alg».proof.Proof.Gen.ReferenceIdeal.Read
import proofs.«167150_j15324443312229_1_alg».proof.Proof.QuantSpec
import Idealize.ShloMosaic.PureOps.Ideal.Laws
import Idealize.ShloMosaic.PureOps.Reduce
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

/-! ## The row maxima -/

/-- Dropping axis 1 of a [4096, 4096] array leaves a [4096] array. -/
theorem red_w : S4096x4096.Reduces [1] S4096 := by decide
/-- Dropping axis 2 of a [4, 2048, 4096] array leaves a [4, 2048] array. -/
theorem red_x : S4x2048x4096.Reduces [2] S4x2048 := by decide

/-- Row o of the weights with coordinate k inserted on the dropped axis is the entry (o, k). -/
theorem lift_w (o k : Fin 4096) : red_w.lift (ix1 o) k = ix2 o k :=
  funext fun a => match a with
    | ⟨0, _⟩ => Fin.ext rfl
    | ⟨1, _⟩ => Fin.ext rfl

/-- Row (b, s) of the activations with coordinate k inserted on the dropped axis is the entry (b, s, k). -/
theorem lift_x (bb : Fin 4) (s : Fin 2048) (k : Fin 4096) : red_x.lift (ix2 bb s) k = ix3 bb s k :=
  funext fun a => match a with
    | ⟨0, _⟩ => Fin.ext rfl
    | ⟨1, _⟩ => Fin.ext rfl
    | ⟨2, _⟩ => Fin.ext rfl

/-- The maximum over row o of |w|: max is commutative and associative, so the reduction over axis 1 is the fold of max
    over the row's coordinates from the initial value -∞, and |v| is max v (-v). -/
theorem amax_w (w : (⟨S4096x4096, .f32⟩ : BufTy).Contents (Elt Ideal)) (o : Fin 4096) :
    Read.val_main_v1 (F := Ideal) w (ix1 o) = Cert.Quant.amax (fun k => w (ix2 o k)) := by
  unfold Read.val_main_v1
  rw [Host.reduce_eq_fold_single FloatOps.maximumf _ _ reducesTo_S4096x4096_S4096_d1 red_w h_S_ (ix1 o)]
  unfold Cert.Quant.amax
  refine Finset.fold_congr (fun k _ => ?_)
  exact congrArg (fun i => max (w i) (-(w i))) (lift_w o k)

/-- The maximum over row (b, s) of |x|, likewise over axis 2. -/
theorem amax_x (x : (⟨S4x2048x4096, .f32⟩ : BufTy).Contents (Elt Ideal)) (bb : Fin 4) (s : Fin 2048) :
    Read.val_main_v14 (F := Ideal) x (ix2 bb s) = Cert.Quant.amax (fun k => x (ix3 bb s k)) := by
  unfold Read.val_main_v14
  rw [Host.reduce_eq_fold_single FloatOps.maximumf _ _ reducesTo_S4x2048x4096_S4x2048_d2 red_x h_S_ (ix2 bb s)]
  unfold Cert.Quant.amax
  refine Finset.fold_congr (fun k _ => ?_)
  exact congrArg (fun i => max (x i) (-(x i))) (lift_x bb s k)

/-! ## The steps -/

/-- The step of row o of the weights: the row maximum, kept as a column, divided by 127 and bounded below by the small
    constant. -/
theorem step_w (w : (⟨S4096x4096, .f32⟩ : BufTy).Contents (Elt Ideal)) (o : Fin 4096) :
    Read.val_main_v6 (F := Ideal) w (ix2 o (0 : Fin 1)) = Cert.Quant.step (fun k => w (ix2 o k)) := by
  have e : Read.idx_main_v2 (ix2 o (0 : Fin 1)) = ix1 o := funext fun a => match a with | ⟨0, _⟩ => rfl
  rw [Read.val_main_v6_apply, Read.val_main_v4_apply, Read.val_main_v2_apply, Read.val_main_v3_apply,
    Read.val_main_v5_apply, Read.val_main_cst_0_apply, Read.val_main_cst_1_apply, e, amax_w]
  rfl

/-- The step of row (b, s) of the activations. -/
theorem step_x (x : (⟨S4x2048x4096, .f32⟩ : BufTy).Contents (Elt Ideal)) (bb : Fin 4) (s : Fin 2048) :
    Read.val_main_v19 (F := Ideal) x (ix3 bb s (0 : Fin 1)) = Cert.Quant.step (fun k => x (ix3 bb s k)) := by
  have e : Read.idx_main_v15 (ix3 bb s (0 : Fin 1)) = ix2 bb s :=
    funext fun a => match a with | ⟨0, _⟩ => rfl | ⟨1, _⟩ => rfl
  rw [Read.val_main_v19_apply, Read.val_main_v17_apply, Read.val_main_v15_apply, Read.val_main_v16_apply,
    Read.val_main_v18_apply, Read.val_main_cst_5_apply, Read.val_main_cst_6_apply, e, amax_x]
  rfl

/-! ## The quantised entries -/

/-- Entry (o, k) of the quantised weights: w[o, k] over the row's step, rounded half to even, clamped below by -128 and
    above by 127, times the row's step. Both uses of the step read the column entry (o, 0). -/
theorem wq_at (w : (⟨S4096x4096, .f32⟩ : BufTy).Contents (Elt Ideal)) (o k : Fin 4096) :
    Read.val_main_v12 (F := Ideal) w (ix2 o k) = Cert.Quant.qrow (fun k' => w (ix2 o k')) k := by
  have e7 : Read.idx_main_v7 (ix2 o k) = ix2 o (0 : Fin 1) :=
    funext fun a => match a with | ⟨0, _⟩ => rfl | ⟨1, _⟩ => rfl
  have e11 : Read.idx_main_v11 (ix2 o k) = ix2 o (0 : Fin 1) :=
    funext fun a => match a with | ⟨0, _⟩ => rfl | ⟨1, _⟩ => rfl
  rw [Read.val_main_v12_apply, Read.val_main_v10_apply, Read.val_main_call1_v4_apply, Read.val_main_call1_v3_apply,
    Read.val_main_cst_3_apply, Read.val_main_call1_v2_apply, Read.val_main_call1_v1_apply, Read.val_main_call1_v0_apply,
    Read.val_main_cst_2_apply, Read.val_main_v9_apply, Read.val_main_v8_apply, Read.val_main_v7_apply,
    Read.val_main_v11_apply, e7, e11, step_w]
  rfl

/-- Entry (b, s, k) of the quantised activations, likewise against the step of row (b, s). -/
theorem xq_at (x : (⟨S4x2048x4096, .f32⟩ : BufTy).Contents (Elt Ideal)) (bb : Fin 4) (s : Fin 2048) (k : Fin 4096) :
    Read.val_main_v25 (F := Ideal) x (ix3 bb s k) = Cert.Quant.qrow (fun k' => x (ix3 bb s k')) k := by
  have e20 : Read.idx_main_v20 (ix3 bb s k) = ix3 bb s (0 : Fin 1) :=
    funext fun a => match a with | ⟨0, _⟩ => rfl | ⟨1, _⟩ => rfl | ⟨2, _⟩ => rfl
  have e24 : Read.idx_main_v24 (ix3 bb s k) = ix3 bb s (0 : Fin 1) :=
    funext fun a => match a with | ⟨0, _⟩ => rfl | ⟨1, _⟩ => rfl | ⟨2, _⟩ => rfl
  rw [Read.val_main_v25_apply, Read.val_main_v23_apply, Read.val_main_call3_v4_apply, Read.val_main_call3_v3_apply,
    Read.val_main_cst_8_apply, Read.val_main_call3_v2_apply, Read.val_main_call3_v1_apply, Read.val_main_call3_v0_apply,
    Read.val_main_cst_7_apply, Read.val_main_v22_apply, Read.val_main_v21_apply, Read.val_main_v20_apply,
    Read.val_main_v24_apply, e20, e24, step_x]
  rfl

/-! ## The result -/

/-- At (b, s, o) the reference's result is the sum over k of the quantised x[b, s, k] times the quantised w[o, k], plus
    bias[o]: the specification. -/
theorem ref_is_out (x : (⟨S4x2048x4096, .f32⟩ : BufTy).Contents (Elt Ideal))
    (w : (⟨S4096x4096, .f32⟩ : BufTy).Contents (Elt Ideal)) (b : (⟨S4096, .f32⟩ : BufTy).Contents (Elt Ideal)) :
    Read.val_main_v29 (F := Ideal) x w b = Cert.Quant.out x w b := by
  funext i
  obtain ⟨bb, s, o, rfl⟩ : ∃ (bb : Fin 4) (s : Fin 2048) (o : Fin 4096), i = ix3 bb s o := ⟨i 0, i 1, i 2, eq_ix3 i⟩
  have el : ∀ k : Fin 4096, Read.lidx_main_v26 (ix3 bb s o) k = ix3 bb s k := fun k =>
    funext fun a => match a with | ⟨0, _⟩ => rfl | ⟨1, _⟩ => rfl | ⟨2, _⟩ => rfl
  have er : ∀ k : Fin 4096, Read.ridx_main_v26 (ix3 bb s o) k = ix2 o k := fun k =>
    funext fun a => match a with | ⟨0, _⟩ => rfl | ⟨1, _⟩ => rfl
  have eb : Read.idx_main_v27 (Read.idx_main_v28 (ix3 bb s o)) = ix1 o :=
    funext fun a => match a with | ⟨0, _⟩ => rfl
  rw [Read.val_main_v29_apply, Read.val_main_v26_apply, Read.val_main_v28_apply, Read.val_main_v27_apply, eb,
    Cert.Quant.out_ix3, Ideal.addf_def]
  unfold Cert.Quant.outAt
  refine congrArg (fun t => t + b (ix1 o)) (Finset.sum_congr rfl fun k _ => ?_)
  rw [el, er, xq_at, wq_at]

end Cert.ReferenceIdeal.RefValue

end
-- ==== Proof.lean ====
/-
  The certificate's claims assembled.

  Both idealized programs compute, over the extended reals,
    out[b, s, o] = (∑ k, q(x[b, s, ·]) k * q(w[o, ·]) k) + bias[o],
  where q quantises a row of 4096 entries against its own step (the row's largest absolute value over 127, bounded
  below by a small constant): divide by the step, round half to even, clamp to [-128, 127], multiply by the step.
  The kernel program does it in three tiled regions over flat layouts; the reference with whole-array operations. The
  two never differ in a constant or in an operation's meaning, so no finiteness of the inputs is used: sums of
  extended reals may be regrouped freely, and nothing else is asked of them.
  The two kernel frames are the generated ones; the reference's frame is its run with the result dropped; the
  idealization rewrote nothing, so there is nothing to preserve.
-/
import proofs.«167150_j15324443312229_1_alg».proof.Defs
import proofs.«167150_j15324443312229_1_alg».proof.Proof.Gen.Kernel
import proofs.«167150_j15324443312229_1_alg».proof.Proof.Gen.Kernel.Skeleton
import proofs.«167150_j15324443312229_1_alg».proof.Proof.Gen.Kernel.Launch
import proofs.«167150_j15324443312229_1_alg».proof.Proof.Gen.Kernel.Points
import proofs.«167150_j15324443312229_1_alg».proof.Proof.Gen.Kernel.Frame
import proofs.«167150_j15324443312229_1_alg».proof.Proof.Gen.KernelIdeal
import proofs.«167150_j15324443312229_1_alg».proof.Proof.Gen.KernelIdeal.Skeleton
import proofs.«167150_j15324443312229_1_alg».proof.Proof.Gen.KernelIdeal.Launch
import proofs.«167150_j15324443312229_1_alg».proof.Proof.Gen.KernelIdeal.Points
import proofs.«167150_j15324443312229_1_alg».proof.Proof.Gen.KernelIdeal.Frame
import proofs.«167150_j15324443312229_1_alg».proof.Proof.Gen.ReferenceIdeal
import proofs.«167150_j15324443312229_1_alg».proof.Proof.Gen.Pre_finite_inputs
import proofs.«167150_j15324443312229_1_alg».proof.Proof.Gen.ReferenceIdeal.Run
import proofs.«167150_j15324443312229_1_alg».proof.Proof.Gen.ReferenceIdeal.Read
import proofs.«167150_j15324443312229_1_alg».proof.Proof.QuantSpec
import proofs.«167150_j15324443312229_1_alg».proof.Proof.KernelValue
import proofs.«167150_j15324443312229_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the arguments both programs end with the specification of those arguments in their
    result buffers: the kernel program by its three regions read back, the reference by its stages read at an index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Quant.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v29_eq _ _ _).trans (Cert.ReferenceIdeal.RefValue.ref_is_out _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
